-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S65536x1x64x1 : S_.BroadcastsInDim S65536x1x64x1 (![] : Fin 0 → Fin S65536x1x64x1.rank)
  reducesTo_S65536x1x64x1_S_d0_1_2_3 : S65536x1x64x1.ReducesTo [0, 1, 2, 3] S_
  bcast_S_S1x1x256x256 : S_.BroadcastsInDim S1x1x256x256 (![] : Fin 0 → Fin S1x1x256x256.rank)
  reducesTo_S1x1x256x256_S_d0_1_2_3 : S1x1x256x256.ReducesTo [0, 1, 2, 3] S_

variable [Facts]

def fn {F : FTy → Type} [FloatOps F] (main_arg0 : FVec F S16x64x256x256 .f32) (main_arg1 : FVec F S65536x1x64x1 .f32) (main_arg2 : FVec F S1x1x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S65536x1x64x1 .f32 := Host.absf main_arg1
  let main_cst_0 : FVec F S_ .f32 := constant S_ .f32 0x7F800000#32
  let main_v5 : FVec F S65536x1x64x1 .f32 := broadcastInDim S65536x1x64x1 ![] bcast_S_S65536x1x64x1 main_cst_0
  let main_v6 : IVec S65536x1x64x1 1 := cmpf .olt main_v4 main_v5
  let main_c_1 : IVec S_ 1 := constantI S_ 1 1#1
  let main_v7 : IVec S_ 1 := (fun x v => Host.reduce IntOp.andi x v reducesTo_S65536x1x64x1_S_d0_1_2_3 h_S_) main_v6 main_c_1
  let main_v8 : IVec S_ 1 := andi main_v3 main_v7
  let main_v9 : FVec F S1x1x256x256 .f32 := Host.absf main_arg2
  let main_cst_2 : FVec F S_ .f32 := constant S_ .f32 0x7F800000#32
  let main_v10 : FVec F S1x1x256x256 .f32 := broadcastInDim S1x1x256x256 ![] bcast_S_S1x1x256x256 main_cst_2
  let main_v11 : IVec S1x1x256x256 1 := cmpf .olt main_v9 main_v10
  let main_c_3 : IVec S_ 1 := constantI S_ 1 1#1
  let main_v12 : IVec S_ 1 := (fun x v => Host.reduce IntOp.andi x v reducesTo_S1x1x256x256_S_d0_1_2_3 h_S_) main_v11 main_c_3
  let main_v13 : IVec S_ 1 := andi main_v8 main_v12
  main_v13
-- ==== Kernel.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S65536x64 : Shape := ⟨2, ![65536, 64]⟩
abbrev S256x256x64 : Shape := ⟨3, ![256, 256, 64]⟩
abbrev S64x256x256 : Shape := ⟨3, ![64, 256, 256]⟩
abbrev S256x256 : Shape := ⟨2, ![256, 256]⟩
abbrev S16x1x256x256 : Shape := ⟨4, ![16, 1, 256, 256]⟩
abbrev S1x64x128x128 : Shape := ⟨4, ![1, 64, 128, 128]⟩
abbrev S64x128x128 : Shape := ⟨3, ![64, 128, 128]⟩
abbrev S128x128 : Shape := ⟨2, ![128, 128]⟩
abbrev S1x1x128x128 : Shape := ⟨4, ![1, 1, 128, 128]⟩
abbrev S1x128x128 : Shape := ⟨3, ![1, 128, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S65536x1x64x1, .f32⟩
  | .hbm, ⟨2, _⟩ => ⟨S1x1x256x256, .f32⟩
  | .hbm, ⟨3, _⟩ => ⟨S65536x64, .f32⟩
  | .hbm, ⟨4, _⟩ => ⟨S256x256x64, .f32⟩
  | .hbm, ⟨5, _⟩ => ⟨S64x256x256, .f32⟩
  | .hbm, ⟨6, _⟩ => ⟨S256x256, .f32⟩
  | .hbm, ⟨7, _⟩ => ⟨S16x1x256x256, .f32⟩
  | .local _ .vmem, ⟨0, _⟩ => ⟨S1x64x128x128, .f32⟩
  | .local _ .vmem, ⟨1, _⟩ => ⟨S1x64x128x128, .f32⟩
  | .local _ .vmem, ⟨2, _⟩ => ⟨S64x128x128, .f32⟩
  | .local _ .vmem, ⟨3, _⟩ => ⟨S64x128x128, .f32⟩
  | .local _ .vmem, ⟨4, _⟩ => ⟨S128x128, .f32⟩
  | .local _ .vmem, ⟨5, _⟩ => ⟨S128x128, .f32⟩
  | .local _ .vmem, ⟨6, _⟩ => ⟨S1x1x128x128, .f32⟩
  | .local _ .vmem, ⟨7, _⟩ => ⟨S1x1x128x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat, arg1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  shapeCasts_S65536x1x64x1_S65536x64 : S65536x1x64x1.ShapeCasts S65536x64
  shapeCasts_S65536x64_S256x256x64 : S65536x64.ShapeCasts S256x256x64
  transposes_S256x256x64_S64x256x256_2_0_1 : S256x256x64.Transposes [2, 0, 1] S64x256x256
  shapeCasts_S1x1x256x256_S256x256 : S1x1x256x256.ShapeCasts S256x256
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  reduces_S64x128x128_S128x128 : S64x128x128.Reduces [0] S128x128
  shapeCasts_S128x128_S1x128x128 : S128x128.ShapeCasts S1x128x128
  broadcasts_S1x128x128_S64x128x128 : S1x128x128.Broadcasts S64x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x64x256x256.size a
  hwx0_0 : ∀ i : grid0.Coords, EltTy.bits .f32 = 32 ∨ (Rect.block (s := S16x64x256x256) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S64x256x256.size a
  hwx0_1 : ∀ i : grid0.Coords, EltTy.bits .f32 = 32 ∨ (Rect.block (s := S64x256x256) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S256x256.size a
  hwx0_2 : ∀ i : grid0.Coords, EltTy.bits .f32 = 32 ∨ (Rect.block (s := S256x256) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128x128.size a ≤ S16x1x256x256.size a
  hwx0_3 : ∀ i : grid0.Coords, EltTy.bits .f32 = 32 ∨ (Rect.block (s := S16x1x256x256) S1x1x128x128.size (cc0_transform_3 i) (hinb0_3 i)).WholeWords (EltTy.packing .f32)

variable [Facts₀]

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S65536x1x64x1 : Shape := ⟨4, ![65536, 1, 64, 1]⟩
abbrev S1x1x256x256 : Shape := ⟨4, ![1, 1, 256, 256]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S256x256x64 : Shape := ⟨3, ![256, 256, 64]⟩
abbrev S64x256x256 : Shape := ⟨3, ![64, 256, 256]⟩
abbrev S1x64x256x256 : Shape := ⟨4, ![1, 64, 256, 256]⟩
abbrev S16x256x256 : Shape := ⟨3, ![16, 256, 256]⟩
abbrev S16x1x256x256 : Shape := ⟨4, ![16, 1, 256, 256]⟩

abbrev nBuf : Space → Nat
  | .hbm => 21
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S65536x1x64x1, .f32⟩
  | .hbm, ⟨2, _⟩ => ⟨S1x1x256x256, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1, .f32⟩
  | .hbm, ⟨9, _⟩ => ⟨S65536x64, .f32⟩
  | .hbm, ⟨10, _⟩ => ⟨S65536x64, .f32⟩
  | .hbm, ⟨11, _⟩ => ⟨S256x256x64, .f32⟩
  | .hbm, ⟨12, _⟩ => ⟨S64x256x256, .f32⟩
  | .hbm, ⟨13, _⟩ => ⟨S1x64x256x256, .f32⟩
  | .hbm, ⟨14, _⟩ => ⟨S16x64x256x256, .f32⟩
  | .hbm, ⟨15, _⟩ => ⟨S16x64x256x256, .f32⟩
  | .hbm, ⟨16, _⟩ => ⟨S_, .f32⟩
  | .hbm, ⟨17, _⟩ => ⟨S16x256x256, .f32⟩
  | .hbm, ⟨18, _⟩ => ⟨S16x1x256x256, .f32⟩
  | .hbm, ⟨19, _⟩ => ⟨S16x1x256x256, .f32⟩
  | .hbm, ⟨20, _⟩ => ⟨S16x1x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S65536x1x64x1_S65536x64 : S65536x1x64x1.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S256x256x64 : S65536x64.ShapeCasts S256x256x64
  transposes_S256x256x64_S64x256x256_2_0_1 : S256x256x64.Transposes [2, 0, 1] S64x256x256
  bcast_S64x256x256_S1x64x256x256_1_2_3 : S64x256x256.BroadcastsInDim S1x64x256x256 (![1, 2, 3] : Fin 3 → Fin S1x64x256x256.rank)
  bcast_S1x64x256x256_S16x64x256x256_0_1_2_3 : S1x64x256x256.BroadcastsInDim S16x64x256x256 (![0, 1, 2, 3] : Fin 4 → Fin S16x64x256x256.rank)
  reducesTo_S16x64x256x256_S16x256x256_d1 : S16x64x256x256.ReducesTo [1] S16x256x256
  bcast_S16x256x256_S16x1x256x256_0_2_3 : S16x256x256.BroadcastsInDim S16x1x256x256 (![0, 2, 3] : Fin 3 → Fin S16x1x256x256.rank)
  bcast_S1x1x256x256_S16x1x256x256_0_1_2_3 : S1x1x256x256.BroadcastsInDim S16x1x256x256 (![0, 1, 2, 3] : Fin 4 → Fin S16x1x256x256.rank)

variable [Facts₀]

class Facts : Prop extends Facts₀ where

variable [Facts]
-- ==== Proof.Spec.lean ====
/-
  The function both programs compute, stated once over the three argument arrays.

  Pixel `(h, w)` of the 256 × 256 image owns row `256·h + w` of the weight matrix, a vector of 64 channel
  weights. That vector is divided by its Euclidean norm (the square root of the sum of its squares), and the
  output at batch `b` and pixel `(h, w)` is the inner product over the 64 channels of the input's channel
  vector there with the normalised weights, plus the bias at the pixel. Everything is read on the extended
  reals: the quotient is the one division of the ideal instance on both sides, applied to the same numerator
  and the same denominator, so a zero or infinite norm needs no separate treatment.
-/
import Idealize.ShloMosaic.PureOps.Ideal
import Idealize.ShloMosaic.Lib.ValueIdx

noncomputable section

open scoped BigOperators

namespace Cert.NormalisedChannelSum

open Idealize.ShloMosaic Idealize.ShloMosaic.ValueIdx

/-- The row of the weight matrix that pixel `(h, w)` owns: `256·h + w`. -/
def pix (h w : Fin 256) : Fin 65536 := ⟨h.val * 256 + w.val, by have := h.isLt; have := w.isLt; omega⟩

theorem pix_val (h w : Fin 256) : (pix h w).val = h.val * 256 + w.val := rfl

/-- Channel `k` of the weight vector of pixel `(h, w)`. -/
def wrow (wt : (⟨4, ![65536, 1, 64, 1]⟩ : Shape).Idx → EReal) (h w : Fin 256) (k : Fin 64) : EReal :=
  wt (ix4 (pix h w) (0 : Fin 1) k (0 : Fin 1))

/-- The Euclidean norm of that weight vector. -/
def sigma (wt : (⟨4, ![65536, 1, 64, 1]⟩ : Shape).Idx → EReal) (h w : Fin 256) : EReal :=
  Ideal.sqrt (∑ k : Fin 64, wrow wt h w k * wrow wt h w k)

/-- The output at batch `b`, pixel `(h, w)`: the channel vector of the input against the normalised weights, plus the bias. -/
def outAt (x : (⟨4, ![16, 64, 256, 256]⟩ : Shape).Idx → EReal) (wt : (⟨4, ![65536, 1, 64, 1]⟩ : Shape).Idx → EReal)
    (bs : (⟨4, ![1, 1, 256, 256]⟩ : Shape).Idx → EReal) (b : Fin 16) (h w : Fin 256) : EReal :=
  (∑ k : Fin 64, x (ix4 b k h w) * Ideal.div (wrow wt h w k) (sigma wt h w)) + bs (ix4 (0 : Fin 1) (0 : Fin 1) h w)

/-- The whole output array, index by index. -/
def result (x : (⟨4, ![16, 64, 256, 256]⟩ : Shape).Idx → EReal) (wt : (⟨4, ![65536, 1, 64, 1]⟩ : Shape).Idx → EReal)
    (bs : (⟨4, ![1, 1, 256, 256]⟩ : Shape).Idx → EReal) : (⟨4, ![16, 1, 256, 256]⟩ : Shape).Idx → EReal :=
  fun i => outAt x wt bs (i 0) (i 2) (i 3)

end Cert.NormalisedChannelSum

end
-- ==== Proof.RefValue.lean ====
/-
  The reference's result array is the specified function of the three argument arrays.

  The reference flattens the weights to a 65536 × 64 matrix, squares and sums each row, takes the square root,
  divides the row by it, re-lays the matrix as channels × rows × columns and sums the product with the input over
  the channel axis before adding the bias. Read one stage at a time at explicit coordinates: element
  `(p, k)` of the flat matrix is weight `(p, 0, k, 0)`; after the re-laying, channel `k` at pixel
  `(h, w)` is element `(256·h + w, k)` of the normalised matrix; both host sums start from the zero word, which
  is the real number zero.
-/
import proofs.«136700_j10075993276859_1_alg».proof.Proof.Gen.ReferenceIdeal.Read
import proofs.«136700_j10075993276859_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.NormalisedChannelSum

/-- Element `(p, k)` of the flattened weights is weight `(p, 0, k, 0)`. -/
theorem flat_at (wt : (⟨S65536x1x64x1, .f32⟩ : BufTy).Contents (Elt Ideal)) (p : Fin 65536) (k : Fin 64) :
    val_main_v0 (F := Ideal) wt (ix2 p k) = wt (ix4 p (0 : Fin 1) k (0 : Fin 1)) :=
  (val_main_v0_apply wt _).trans (congrArg wt (funext fun a => Fin.ext (by
    have hp := p.isLt; have hk := k.isLt
    match a with
    | ⟨0, _⟩ => show (p.val * 64 + k.val) / 64 = p.val; omega
    | ⟨1, _⟩ => rfl
    | ⟨2, _⟩ => show (p.val * 64 + k.val) / 1 % 64 = k.val; omega
    | ⟨3, _⟩ => rfl)))

/-- The host's sum of squares along row `p`: from the zero word, the sum over the 64 channels. -/
theorem sumsq_at (wt : (⟨S65536x1x64x1, .f32⟩ : BufTy).Contents (Elt Ideal)) (p : Fin 65536) :
    val_main_v2 (F := Ideal) wt (ix1 p)
      = ∑ k : Fin 64, wt (ix4 p (0 : Fin 1) k (0 : Fin 1)) * wt (ix4 p (0 : Fin 1) k (0 : Fin 1)) := by
  rw [val_main_v2_apply]
  show Ideal.ofBits .f32 0x00000000#32 + _ = _
  rw [Ideal.ofBits_zero_f32, zero_add]
  refine Finset.sum_congr rfl fun k _ => ?_
  have e : idx_main_v2 (ix1 p) k = ix2 p k :=
    funext fun a => Fin.ext (by match a with | ⟨0, _⟩ => rfl | ⟨1, _⟩ => rfl)
  rw [e, val_main_v1_apply, flat_at]
  rfl

/-- The norm of row `p`, broadcast along the row. -/
theorem norm_at (wt : (⟨S65536x1x64x1, .f32⟩ : BufTy).Contents (Elt Ideal)) (p : Fin 65536) (k : Fin 64) :
    val_main_v5 (F := Ideal) wt (ix2 p k)
      = Ideal.sqrt (∑ k' : Fin 64, wt (ix4 p (0 : Fin 1) k' (0 : Fin 1)) * wt (ix4 p (0 : Fin 1) k' (0 : Fin 1))) := by
  rw [val_main_v5_apply, val_main_v4_apply, val_main_v3_apply]
  have e : idx_main_v3 (idx_main_v5 (ix2 p k)) = ix1 p :=
    funext fun a => Fin.ext (by match a with | ⟨0, _⟩ => rfl)
  rw [e, sumsq_at]
  rfl

/-- Element `(p, k)` of the normalised matrix. -/
theorem normalised_at (wt : (⟨S65536x1x64x1, .f32⟩ : BufTy).Contents (Elt Ideal)) (p : Fin 65536) (k : Fin 64) :
    val_main_v6 (F := Ideal) wt (ix2 p k)
      = Ideal.div (wt (ix4 p (0 : Fin 1) k (0 : Fin 1)))
          (Ideal.sqrt (∑ k' : Fin 64, wt (ix4 p (0 : Fin 1) k' (0 : Fin 1)) * wt (ix4 p (0 : Fin 1) k' (0 : Fin 1)))) := by
  rw [val_main_v6_apply, flat_at, norm_at]
  rfl

/-- After the reshape, the transpose and the two broadcasts, entry `(b, k, h, w)` is element `(256·h + w, k)` of
    the normalised matrix, whatever the batch. -/
theorem relaid_at (wt : (⟨S65536x1x64x1, .f32⟩ : BufTy).Contents (Elt Ideal)) (b : Fin 16) (k : Fin 64) (h w : Fin 256) :
    val_main_v10 (F := Ideal) wt (ix4 b k h w) = val_main_v6 (F := Ideal) wt (ix2 (pix h w) k) := by
  rw [val_main_v10_apply, val_main_v9_apply, val_main_v8_apply, val_main_v7_apply]
  exact congrArg (val_main_v6 (F := Ideal) wt) (funext fun a => Fin.ext (by
    have hh := h.isLt; have hw := w.isLt; have hk := k.isLt
    match a with
    | ⟨0, _⟩ => show ((h.val * 256 + w.val) * 64 + k.val) / 64 = h.val * 256 + w.val; omega
    | ⟨1, _⟩ => show ((h.val * 256 + w.val) * 64 + k.val) % 64 = k.val; omega))

/-- The host's sum over the channel axis at `(b, h, w)`. -/
theorem chansum_at (x : (⟨S16x64x256x256, .f32⟩ : BufTy).Contents (Elt Ideal)) (wt : (⟨S65536x1x64x1, .f32⟩ : BufTy).Contents (Elt Ideal))
    (b : Fin 16) (h w : Fin 256) :
    val_main_v12 (F := Ideal) x wt (ix3 b h w)
      = ∑ k : Fin 64, x (ix4 b k h w) * Ideal.div (wrow wt h w k) (sigma wt h w) := by
  rw [val_main_v12_apply]
  show Ideal.ofBits .f32 0x00000000#32 + _ = _
  rw [Ideal.ofBits_zero_f32, zero_add]
  refine Finset.sum_congr rfl fun k _ => ?_
  have e : idx_main_v12 (ix3 b h w) k = ix4 b k h w :=
    funext fun a => Fin.ext (by match a with | ⟨0, _⟩ => rfl | ⟨1, _⟩ => rfl | ⟨2, _⟩ => rfl | ⟨3, _⟩ => rfl)
  rw [e, val_main_v11_apply, relaid_at, normalised_at]
  rfl

/-- The reference's result at `(b, 0, h, w)` is the specified output there. -/
theorem out_at (x : (⟨S16x64x256x256, .f32⟩ : BufTy).Contents (Elt Ideal)) (wt : (⟨S65536x1x64x1, .f32⟩ : BufTy).Contents (Elt Ideal))
    (bs : (⟨S1x1x256x256, .f32⟩ : BufTy).Contents (Elt Ideal)) (b : Fin 16) (h w : Fin 256) :
    val_main_v15 (F := Ideal) x wt bs (ix4 b (0 : Fin 1) h w) = outAt x wt bs b h w := by
  rw [val_main_v15_apply, val_main_v13_apply, val_main_v14_apply]
  have e13 : idx_main_v13 (ix4 b (0 : Fin 1) h w) = ix3 b h w :=
    funext fun a => Fin.ext (by match a with | ⟨0, _⟩ => rfl | ⟨1, _⟩ => rfl | ⟨2, _⟩ => rfl)
  have e14 : idx_main_v14 (ix4 b (0 : Fin 1) h w) = ix4 (0 : Fin 1) (0 : Fin 1) h w :=
    funext fun a => Fin.ext (by match a with | ⟨0, _⟩ => rfl | ⟨1, _⟩ => rfl | ⟨2, _⟩ => rfl | ⟨3, _⟩ => rfl)
  rw [e13, e14, chansum_at]
  rfl

/-- The reference's result array is the specified function of the arguments. -/
theorem ref_eq (x : (⟨S16x64x256x256, .f32⟩ : BufTy).Contents (Elt Ideal)) (wt : (⟨S65536x1x64x1, .f32⟩ : BufTy).Contents (Elt Ideal))
    (bs : (⟨S1x1x256x256, .f32⟩ : BufTy).Contents (Elt Ideal)) :
    val_main_v15 (F := Ideal) x wt bs = result x wt bs := by
  funext i
  obtain ⟨b, z, h, w, rfl⟩ : ∃ (b : Fin 16) (z : Fin 1) (h w : Fin 256), i = ix4 b z h w := ⟨i 0, i 1, i 2, i 3, eq_ix4 i⟩
  obtain rfl : z = 0 := Subsingleton.elim _ _
  exact out_at x wt bs b h w

end Cert.ReferenceIdeal.RefValue

end
-- ==== Proof.BlockValue.lean ====
/-
  What the kernel body leaves in the output block, entry by entry.

  The body loads a [1, 64, 128, 128] block of the input, a [64, 128, 128] block of the re-laid weights and a
  [128, 128] block of the bias. Entry `(r, s)` of the block it stores is: the sum over the 64 channels `k` of the
  input block's entry `(0, k, r, s)` times the weight block's entry `(k, r, s)` divided by the square root of the
  sum over the channels of that column's squares, plus the bias block's entry `(r, s)`. The two sums are lane
  sums along the leading axis from the zero word, which at the ideal instance are plain sums over the channel;
  dropping and adding a leading unit axis, the same-shape cast and the broadcast of the norm along the channels
  are read at an index by their row-major positions.
-/
import proofs.«136700_j10075993276859_1_alg».proof.Proof.Gen.KernelIdeal.Value
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- Dropping the leading unit axis: entry `(k, r, s)` of the cast is entry `(0, k, r, s)`. -/
theorem dropUnit_at (v : FVec Ideal S1x64x128x128 .f32) (hc : S1x64x128x128.ShapeCasts S64x128x128) (k : Fin 64) (r s : Fin 128) :
    shapeCast S64x128x128 v hc (ix3 k r s) = v (ix4 (0 : Fin 1) k r s) :=
  shapeCast_apply v hc (ix3 k r s) (ix4 (0 : Fin 1) k r s) (by
    rw [Shape.rowMajor_val_four, Shape.rowMajor_val_three]
    show ((0 * 64 + k.val) * 128 + r.val) * 128 + s.val = (k.val * 128 + r.val) * 128 + s.val
    omega)

/-- Adding a leading unit axis: entry `(0, r, s)` of the cast is entry `(r, s)`. -/
theorem addUnit_at (v : FVec Ideal S128x128 .f32) (hc : S128x128.ShapeCasts S1x128x128) (z : Fin 1) (r s : Fin 128) :
    shapeCast S1x128x128 v hc (ix3 z r s) = v (ix2 r s) :=
  shapeCast_apply v hc (ix3 z r s) (ix2 r s) (by
    have hz := z.isLt
    rw [Shape.rowMajor_val_two, Shape.rowMajor_val_three]
    show r.val * 128 + s.val = (z.val * 128 + r.val) * 128 + s.val
    omega)

/-- The norm, one per column, broadcast along the channels: entry `(k, r, s)` is entry `(0, r, s)`. -/
theorem alongChannels_at (v : FVec Ideal S1x128x128 .f32) (hb : S1x128x128.Broadcasts S64x128x128) (k : Fin 64) (r s : Fin 128) :
    broadcastTo S64x128x128 v hb (ix3 k r s) = v (ix3 (0 : Fin 1) r s) :=
  broadcastTo_apply v hb (ix3 k r s) (ix3 (0 : Fin 1) r s) (fun a => match a with
    | ⟨0, _⟩ => by show 0 = if (1 : Nat) = 1 then 0 else k.val; rw [if_pos rfl]
    | ⟨1, _⟩ => by show r.val = if (128 : Nat) = 1 then 0 else r.val; rw [if_neg (by decide)]
    | ⟨2, _⟩ => by show s.val = if (128 : Nat) = 1 then 0 else s.val; rw [if_neg (by decide)])

/-- A lane sum along the leading axis of a [64, 128, 128] vector from the zero word, at `(r, s)`: the sum over the
    channel `k` of entry `(k, r, s)`. -/
theorem chanSum_at (v : FVec Ideal S64x128x128 .f32) (hr : S64x128x128.Reduces [0] S128x128) (hφ : FKind.Formats .f32)
    (hacc : (0x00000000#32 : BitVec 32) = FKind.add.neutral .f32 hφ) (r s : Fin 128) :
    multiReduction (F := Ideal) .add [0] S128x128 v 0x00000000#32 hr hφ hacc (ix2 r s) = ∑ k : Fin 64, v (ix3 k r s) := by
  refine (Ideal.multiReduction_add_single v 0x00000000#32 hr hφ hacc (ix2 r s)).trans ?_
  refine Finset.sum_congr rfl fun k _ => congrArg v (funext fun a => Fin.ext ?_)
  match a with
  | ⟨0, _⟩ => rfl
  | ⟨1, _⟩ => rfl
  | ⟨2, _⟩ => rfl

/-- Entry `(r, s)` of the block the body stores, from the three loaded blocks. -/
theorem block_at (P0 : Vec Ideal S1x64x128x128 .f32) (P1 : Vec Ideal S64x128x128 .f32) (P2 : Vec Ideal S128x128 .f32)
    (z0 z1 : Fin 1) (r s : Fin 128) :
    Cert.KernelIdeal.Value.E3 (F := Ideal) P0 P1 P2 (ix4 z0 z1 r s)
      = (∑ k : Fin 64, P0 (ix4 (0 : Fin 1) k r s)
            * Ideal.div (P1 (ix3 k r s)) (Ideal.sqrt (∑ k' : Fin 64, P1 (ix3 k' r s) * P1 (ix3 k' r s))))
        + P2 (ix2 r s) := by
  have e0 : Cert.KernelIdeal.Value.ix3_0 (ix4 z0 z1 r s) = ix2 r s :=
    funext fun a => Fin.ext (by match a with | ⟨0, _⟩ => rfl | ⟨1, _⟩ => rfl)
  have e1 : Cert.KernelIdeal.Value.ix3_1 (ix4 z0 z1 r s) = ix2 r s :=
    funext fun a => Fin.ext (by match a with | ⟨0, _⟩ => rfl | ⟨1, _⟩ => rfl)
  dsimp only [Cert.KernelIdeal.Value.E3]
  rw [e0, e1]
  refine congrArg₂ (fun a b : EReal => a + b) ?_ rfl
  refine (chanSum_at _ _ _ _ r s).trans ?_
  refine Finset.sum_congr rfl fun k _ => ?_
  refine (mulf_apply _ _ _).trans ?_
  refine congrArg₂ (fun a b : EReal => a * b) (dropUnit_at P0 _ k r s) ?_
  refine (divf_apply _ _ _).trans ?_
  refine congrArg₂ Ideal.div (congrFun (shapeCast_self P1 _) _) ?_
  refine (alongChannels_at _ _ k r s).trans ?_
  refine congrArg Ideal.sqrt ?_
  refine (addUnit_at _ _ (0 : Fin 1) r s).trans ?_
  refine (chanSum_at _ _ _ _ r s).trans ?_
  refine Finset.sum_congr rfl fun k' _ => ?_
  refine (mulf_apply _ _ _).trans ?_
  exact congrArg₂ (fun a b : EReal => a * b) (congrFun (shapeCast_self P1 _) _) (congrFun (shapeCast_self P1 _) _)

end Cert.KernelIdeal.BlockValue

end
-- ==== Proof.EntryArrays.lean ====
/-
  The arrays the kernel's second and third windows stage, as the region finds them.

  Before the region the host re-lays the weights (flatten to 65536 × 64, view as 256 × 256 × 64, move the channel
  axis to the front) and squeezes the bias to 256 × 256. Read at an index: entry `(k, h, w)` of the re-laid
  weights is channel `k` of the weight vector of pixel `(h, w)`, that is weight `(256·h + w, 0, k, 0)`, and entry
  `(h, w)` of the squeezed bias is bias `(0, 0, h, w)`.
-/
import proofs.«136700_j10075993276859_1_alg».proof.Proof.Gen.KernelIdeal.Frame
import proofs.«136700_j10075993276859_1_alg».proof.Proof.Spec
import Idealize.ShloMosaic.Lib.StableHlo.Run
import Idealize.ShloMosaic.Lib.ValueIdx
import Idealize.ShloMosaic.Lib.Pipeline.Value

noncomputable section

namespace Cert.KernelIdeal.EntryArrays

open Cert.KernelIdeal Cert.KernelIdeal.Gen Idealize.ShloMosaic Idealize.ShloMosaic.TcCoe Idealize.SL.Sem
open Idealize.ShloMosaic.StableHlo Idealize.ShloMosaic.ValueIdx Cert.NormalisedChannelSum

variable (m : (ℓ : Loc nD τ sig) → Buf (Elt Ideal) ℓ)

/-- The second window's array is the weights flattened, viewed 256 × 256 × 64 and transposed to channels first. -/
theorem weights_relaid (c : Dev nD) :
    (V m c main_v2 : S64x256x256.Idx → EReal)
      = transpose S64x256x256 [2, 0, 1]
          (shapeCast S256x256x64 (shapeCast S65536x64 (m ((c : Thread nD τ).loc main_arg1)) shapeCasts_S65536x1x64x1_S65536x64)
            shapeCasts_S65536x64_S256x256x64)
          transposes_S256x256x64_S64x256x256_2_0_1 := by
  dsimp only [V, hostOps0]
  after_results
  rfl

/-- Entry `(k, h, w)` of it is channel `k` of pixel `(h, w)`'s weight vector. -/
theorem weights_at (c : Dev nD) (k : Fin 64) (h w : Fin 256) :
    (V m c main_v2 : S64x256x256.Idx → EReal) (ix3 k h w) = wrow (m ((c : Thread nD τ).loc main_arg1)) h w k := by
  refine (congrFun (weights_relaid m c) (ix3 k h w)).trans ?_
  refine (transpose_apply [2, 0, 1] _ _ (ix3 k h w) (ix3 h w k) (fun b => match b with
    | ⟨0, _⟩ => rfl
    | ⟨1, _⟩ => rfl
    | ⟨2, _⟩ => rfl)).trans ?_
  refine (shapeCast_apply _ _ (ix3 h w k) (ix2 (pix h w) k) (by
    rw [Shape.rowMajor_val_two, Shape.rowMajor_val_three]
    show (h.val * 256 + w.val) * 64 + k.val = (h.val * 256 + w.val) * 64 + k.val
    rfl)).trans ?_
  exact shapeCast_apply _ _ (ix2 (pix h w) k) (ix4 (pix h w) (0 : Fin 1) k (0 : Fin 1)) (by
    rw [Shape.rowMajor_val_four, Shape.rowMajor_val_two]
    show (((h.val * 256 + w.val) * 1 + 0) * 64 + k.val) * 1 + 0 = (h.val * 256 + w.val) * 64 + k.val
    omega)

/-- The third window's array is the bias with its two unit axes dropped. -/
theorem bias_squeezed (c : Dev nD) :
    (V m c main_v3 : S256x256.Idx → EReal)
      = shapeCast S256x256 (m ((c : Thread nD τ).loc main_arg2)) shapeCasts_S1x1x256x256_S256x256 := by
  dsimp only [V, hostOps0]
  after_results
  rfl

/-- Entry `(h, w)` of it is bias `(0, 0, h, w)`. -/
theorem bias_at (c : Dev nD) (h w : Fin 256) :
    (V m c main_v3 : S256x256.Idx → EReal) (ix2 h w) = m ((c : Thread nD τ).loc main_arg2) (ix4 (0 : Fin 1) (0 : Fin 1) h w) := by
  refine (congrFun (bias_squeezed m c) (ix2 h w)).trans ?_
  exact shapeCast_apply _ _ (ix2 h w) (ix4 (0 : Fin 1) (0 : Fin 1) h w) (by
    rw [Shape.rowMajor_val_four, Shape.rowMajor_val_two]
    show ((0 * 1 + 0) * 256 + h.val) * 256 + w.val = h.val * 256 + w.val
    omega)

end Cert.KernelIdeal.EntryArrays

end
-- ==== Proof.ArrayValue.lean ====
/-
  From the blocks to the whole output array.

  The grid has 64 points: a 2 × 2 tiling of the 256 × 256 image into 128 × 128 tiles, times the 16 batches. At the
  point with tile `(p, q)` and batch `b` the input window holds batch `b`, all 64 channels, rows
  `128·p …` and columns `128·q …`; the weight and bias windows hold the same tile; and the output window writes
  back batch `b`, that tile. So entry `(r, s)` of the block written back is the specified output at batch `b`,
  pixel `(128·p + r, 128·q + s)`. Every index of the output lies in exactly the block of its batch and its tile,
  so the blocks cover the array and the array ends as the specified function of the arguments.
-/
import proofs.«136700_j10075993276859_1_alg».proof.Proof.Gen.KernelIdeal.Value
import proofs.«136700_j10075993276859_1_alg».proof.Proof.Spec
import proofs.«136700_j10075993276859_1_alg».proof.Proof.BlockValue
import proofs.«136700_j10075993276859_1_alg».proof.Proof.EntryArrays
import Idealize.ShloMosaic.Lib.ValueIdx
import Idealize.ShloMosaic.Lib.Pipeline.Value

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.NormalisedChannelSum

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

/-- Entry `(r, s)` of what the body leaves in the output's buffer, from the three blocks it loaded whole. -/
theorem stored_at (x0 : Vec Ideal S1x64x128x128 .f32) (x1 : Vec Ideal S64x128x128 .f32) (x2 : Vec Ideal S128x128 .f32)
    (z0 z1 : Fin 1) (r s : Fin 128) :
    out0_3 x0 x1 x2 (ix4 z0 z1 r s)
      = (∑ k : Fin 64, x0 (ix4 (0 : Fin 1) k r s)
            * Ideal.div (x1 (ix3 k r s)) (Ideal.sqrt (∑ k' : Fin 64, x1 (ix3 k' r s) * x1 (ix3 k' r s))))
        + x2 (ix2 r s) := by
  unfold out0_3
  rw [Cert.KernelIdeal.Value.canon3_eq]
  simp only [View.ld_unit_zero (S := S1x64x128x128) zeros4, View.ld_unit_zero (S := S64x128x128) zeros3,
    View.ld_unit_zero (S := S128x128) zeros2]
  exact BlockValue.block_at x0 x1 x2 z0 z1 r s

/-- The printed index maps, decided over the 64 points: the input window is at the output's batch and tile with
    channel block 0, the weight and bias windows at the output's tile; the output's block indices are a batch
    below 16, 0, and a tile coordinate below 2 each. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = win0_3.index t (3 : Fin 4)
    ∧ win0_1.index t (0 : Fin 3) = 0 ∧ win0_1.index t (1 : Fin 3) = win0_3.index t (2 : Fin 4)
    ∧ win0_1.index t (2 : Fin 3) = win0_3.index t (3 : Fin 4)
    ∧ win0_2.index t (0 : Fin 2) = win0_3.index t (2 : Fin 4) ∧ win0_2.index t (1 : Fin 2) = win0_3.index t (3 : Fin 4)
    ∧ win0_3.index t (0 : Fin 4) ≤ 15 ∧ win0_3.index t (1 : Fin 4) = 0
    ∧ win0_3.index t (2 : Fin 4) ≤ 1 ∧ win0_3.index t (3 : Fin 4) ≤ 1 :=
  (by decide +kernel : ∀ t : Fin grid0.N, _)

/-- Every batch and tile is some point's. -/
theorem idx_onto : ∀ (b : Fin 16) (p q : Fin 2), ∃ t : Fin cfg0.N, win0_3.index t = ![b.val, 0, p.val, q.val] :=
  (by decide +kernel : ∀ (b : Fin 16) (p q : Fin 2), ∃ t : Fin grid0.N, win0_3.index t = ![b.val, 0, p.val, q.val])

/-- The three loaded blocks at point `t`, typed by their literal shapes. -/
abbrev xblk (c : Dev nD) (t : Fin cfg0.N) : Vec Ideal S1x64x128x128 .f32 := iblk m c 0 t
abbrev wblk (c : Dev nD) (t : Fin cfg0.N) : Vec Ideal S64x128x128 .f32 := iblk m c 1 t
abbrev bblk (c : Dev nD) (t : Fin cfg0.N) : Vec Ideal S128x128 .f32 := iblk m c 2 t

/-- The input block at point `t`: entry `(0, k, r, s)` is the input at the point's batch, channel `k`, and the pixel
    `(r, s)` of the point's tile. -/
theorem xblk_at (c : Dev nD) (t : Fin cfg0.N) (b : Fin 16) (h w : Fin 256) (k : Fin 64) (r s : Fin 128)
    (hb : b.val = win0_3.index t (0 : Fin 4)) (hh : h.val = win0_3.index t (2 : Fin 4) * 128 + r.val)
    (hw : w.val = win0_3.index t (3 : Fin 4) * 128 + s.val) :
    xblk m c t (ix4 (0 : Fin 1) k r s) = m ((c : Thread nD τ).loc main_arg0) (ix4 b k h w) := by
  obtain ⟨e0, e1, e2, e3, -⟩ := idx_facts t
  show V m c main_arg0 (((cfg0.win 0).blk t).view.emb (ix4 (0 : Fin 1) k r s)) = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 64 + 1 * k.val = k.val; omega
  | ⟨2, _⟩ => show win0_0.index t (2 : Fin 4) * 128 + 1 * r.val = h.val; omega
  | ⟨3, _⟩ => show win0_0.index t (3 : Fin 4) * 128 + 1 * s.val = w.val; omega

/-- The weight block at point `t`: entry `(k, r, s)` is channel `k` of the weight vector of the tile's pixel `(r, s)`. -/
theorem wblk_at (c : Dev nD) (t : Fin cfg0.N) (h w : Fin 256) (k : Fin 64) (r s : Fin 128)
    (hh : h.val = win0_3.index t (2 : Fin 4) * 128 + r.val) (hw : w.val = win0_3.index t (3 : Fin 4) * 128 + s.val) :
    wblk m c t (ix3 k r s) = wrow (m ((c : Thread nD τ).loc main_arg1)) h w k := by
  obtain ⟨-, -, -, -, e4, e5, e6, -⟩ := idx_facts t
  have e : ((cfg0.win 1).blk t).view.emb (ix3 k r s) = ix3 k h w := by
    funext a; apply Fin.ext
    match a with
    | ⟨0, _⟩ => show win0_1.index t (0 : Fin 3) * 64 + 1 * k.val = k.val; omega
    | ⟨1, _⟩ => show win0_1.index t (1 : Fin 3) * 128 + 1 * r.val = h.val; omega
    | ⟨2, _⟩ => show win0_1.index t (2 : Fin 3) * 128 + 1 * s.val = w.val; omega
  show V m c main_v2 (((cfg0.win 1).blk t).view.emb (ix3 k r s)) = _
  rw [e]
  exact EntryArrays.weights_at m c k h w

/-- The bias block at point `t`: entry `(r, s)` is the bias at the tile's pixel `(r, s)`. -/
theorem bblk_at (c : Dev nD) (t : Fin cfg0.N) (h w : Fin 256) (r s : Fin 128)
    (hh : h.val = win0_3.index t (2 : Fin 4) * 128 + r.val) (hw : w.val = win0_3.index t (3 : Fin 4) * 128 + s.val) :
    bblk m c t (ix2 r s) = m ((c : Thread nD τ).loc main_arg2) (ix4 (0 : Fin 1) (0 : Fin 1) h w) := by
  obtain ⟨-, -, -, -, -, -, -, e7, e8, -⟩ := idx_facts t
  have e : ((cfg0.win 2).blk t).view.emb (ix2 r s) = ix2 h w := by
    funext a; apply Fin.ext
    match a with
    | ⟨0, _⟩ => show win0_2.index t (0 : Fin 2) * 128 + 1 * r.val = h.val; omega
    | ⟨1, _⟩ => show win0_2.index t (1 : Fin 2) * 128 + 1 * s.val = w.val; omega
  show V m c main_v3 (((cfg0.win 2).blk t).view.emb (ix2 r s)) = _
  rw [e]
  exact EntryArrays.bias_at m c h w

/-- Entry `(r, s)` of what point `t` leaves in the output's buffer is the specified output at the point's batch and
    the tile's pixel `(r, s)`. -/
theorem point_at (c : Dev nD) (t : Fin cfg0.N) (b : Fin 16) (h w : Fin 256) (z0 z1 : Fin 1) (r s : Fin 128)
    (hb : b.val = win0_3.index t (0 : Fin 4)) (hh : h.val = win0_3.index t (2 : Fin 4) * 128 + r.val)
    (hw : w.val = win0_3.index t (3 : Fin 4) * 128 + s.val) :
    out0_3 (xblk m c t) (wblk m c t) (bblk m c t) (ix4 z0 z1 r s)
      = outAt (m ((c : Thread nD τ).loc main_arg0)) (m ((c : Thread nD τ).loc main_arg1)) (m ((c : Thread nD τ).loc main_arg2)) b h w := by
  refine (stored_at (xblk m c t) (wblk m c t) (bblk m c t) z0 z1 r s).trans ?_
  unfold outAt sigma
  refine congrArg₂ (fun a b : EReal => a + b) (Finset.sum_congr rfl fun k _ => ?_) (bblk_at m c t h w r s hh hw)
  refine congrArg₂ (fun a b : EReal => a * b) (xblk_at m c t b h w k r s hb hh hw) ?_
  refine congrArg₂ Ideal.div (wblk_at m c t h w k r s hh hw) (congrArg Ideal.sqrt (Finset.sum_congr rfl fun k' _ => ?_))
  exact congrArg₂ (fun a b : EReal => a * b) (wblk_at m c t h w k' r s hh hw) (wblk_at m c t h w k' r s hh hw)

/-- What point `t` writes back is block `t` of the specified function of the argument arrays. -/
theorem flushed_eq (c : Dev nD) (t : Fin cfg0.N) :
    (dats m 0 c).flushed 3 t
      = ((cfg0.win 3).blk t).view.read (Elt Ideal)
          (result (m ((c : Thread nD τ).loc main_arg0)) (m ((c : Thread nD τ).loc main_arg1)) (m ((c : Thread nD τ).loc main_arg2))) := by
  rw [Cert.KernelIdeal.Value.flushed3]
  obtain ⟨-, -, -, -, -, -, -, -, -, f0, f1, f2, f3⟩ := idx_facts t
  funext j
  have hj0 : (j 0).val < 1 := (j 0).isLt
  have hj1 : (j 1).val < 1 := (j 1).isLt
  have hj2 : (j 2).val < 128 := (j 2).isLt
  have hj3 : (j 3).val < 128 := (j 3).isLt
  have ej : (cfg0.win 3).xinj (grid0.coords t) j
      = ix4 (⟨(j 0).val, hj0⟩ : Fin 1) (⟨(j 1).val, hj1⟩ : Fin 1) (⟨(j 2).val, hj2⟩ : Fin 128) (⟨(j 3).val, hj3⟩ : Fin 128) := by
    funext a; apply Fin.ext
    match a with
    | ⟨0, _⟩ => rfl
    | ⟨1, _⟩ => rfl
    | ⟨2, _⟩ => rfl
    | ⟨3, _⟩ => rfl
  have ei : ((cfg0.win 3).blk t).view.emb j
      = ix4 (⟨win0_3.index t (0 : Fin 4), by omega⟩ : Fin 16) (0 : Fin 1)
          (⟨win0_3.index t (2 : Fin 4) * 128 + (j 2).val, by omega⟩ : Fin 256)
          (⟨win0_3.index t (3 : Fin 4) * 128 + (j 3).val, by omega⟩ : Fin 256) := by
    funext a; apply Fin.ext
    match a with
    | ⟨0, _⟩ => show win0_3.index t (0 : Fin 4) * 1 + 1 * (j 0).val = win0_3.index t (0 : Fin 4); omega
    | ⟨1, _⟩ => show win0_3.index t (1 : Fin 4) * 1 + 1 * (j 1).val = 0; omega
    | ⟨2, _⟩ => show win0_3.index t (2 : Fin 4) * 128 + 1 * (j 2).val = win0_3.index t (2 : Fin 4) * 128 + (j 2).val; omega
    | ⟨3, _⟩ => show win0_3.index t (3 : Fin 4) * 128 + 1 * (j 3).val = win0_3.index t (3 : Fin 4) * 128 + (j 3).val; omega
  show out0_3 (xblk m c t) (wblk m c t) (bblk m c t) ((cfg0.win 3).xinj (grid0.coords t) j)
      = result (m ((c : Thread nD τ).loc main_arg0)) (m ((c : Thread nD τ).loc main_arg1)) (m ((c : Thread nD τ).loc main_arg2))
          (((cfg0.win 3).blk t).view.emb j)
  rw [ej, ei]
  exact point_at m c t _ _ _ _ _ _ _ rfl rfl rfl

/-- An index of the output is in point `t`'s block iff each coordinate is in the block's range on its axis. -/
theorem mem_blk (t : Fin cfg0.N) (i : S16x1x256x256.Idx) :
    i ∈ ((cfg0.win 3).blk t).view.set ↔ ∀ a : Fin 4, win0_3.index t a * S1x1x128x128.size a ≤ (i a).val
      ∧ (i a).val < win0_3.index t a * S1x1x128x128.size a + S1x1x128x128.size a := by
  show i ∈ ((View.whole main_v4).slice (win0_3.rect t)).set ↔ _
  rw [View.set_slice_whole, Rect.mem_set_unit]
  exact Iff.rfl

/-- Every index of the output is in the block of its batch and its tile. -/
theorem cover (i : S16x1x256x256.Idx) :
    ∃ t : Fin cfg0.N, (cfg0.win 3).flush t = true ∧ i ∈ ((cfg0.win 3).blk t).view.set := by
  have hi0 : (i 0).val < 16 := (i 0).isLt
  have hi1 : (i 1).val < 1 := (i 1).isLt
  have hi2 : (i 2).val < 256 := (i 2).isLt
  have hi3 : (i 3).val < 256 := (i 3).isLt
  obtain ⟨t, ht⟩ := idx_onto ⟨(i 0).val, hi0⟩ ⟨(i 2).val / 128, by omega⟩ ⟨(i 3).val / 128, by omega⟩
  have q0 : win0_3.index t (0 : Fin 4) = (i 0).val := congrFun ht 0
  have q1 : win0_3.index t (1 : Fin 4) = 0 := congrFun ht 1
  have q2 : win0_3.index t (2 : Fin 4) = (i 2).val / 128 := congrFun ht 2
  have q3 : win0_3.index t (3 : Fin 4) = (i 3).val / 128 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 128 ≤ (i 2).val ∧ (i 2).val < win0_3.index t (2 : Fin 4) * 128 + 128; omega
  | ⟨3, _⟩ => show win0_3.index t (3 : Fin 4) * 128 ≤ (i 3).val ∧ (i 3).val < win0_3.index t (3 : Fin 4) * 128 + 128; omega

/-- The output array after the run is the specified function of the argument arrays. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every execution ends with the result array at the specified function of the arguments and
    the arguments unchanged. -/
theorem run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.lean ====
/-
  The kernel and the reference compute one function, and each program runs to the end leaving its arguments alone.

  For a batch of 16 inputs with 64 channels on a 256 × 256 image, every pixel owns a vector of 64 channel weights.
  Both programs divide that vector by its Euclidean norm and return, at every batch and pixel, the inner product over
  the channels of the input's channel vector with the normalised weights, plus a per-pixel bias. The kernel does it
  tile by tile (a 2 × 2 tiling of the image into 128 × 128 tiles, one batch at a time) on weights the host has already
  re-laid channels-first; the reference normalises the flat 65536 × 64 weight matrix row by row and re-lays it
  afterwards. Read on the extended reals the two are the same sums of the same terms: the lane sums and the host's
  sums from the zero word are plain sums over the channel, the kernel's and the host's square root are one function
  and so are their quotients, and the re-laying commutes with the row-wise normalisation because row `256·h + w`
  of the matrix is pixel `(h, w)`. No law beyond that is used, so the precondition is never opened: in particular
  a zero norm is divided by on both sides alike.

  The three frames are the generated ones (the reference's is its generated run with the result dropped); the
  idealisation rewrote nothing, so there is nothing to preserve; the value claim sets the kernel's run
  (Proof/ArrayValue.lean) beside the reference's (Proof/RefValue.lean) at the same function
  (Proof/Spec.lean).
-/
import proofs.«136700_j10075993276859_1_alg».proof.Defs
import proofs.«136700_j10075993276859_1_alg».proof.Proof.Gen.Kernel
import proofs.«136700_j10075993276859_1_alg».proof.Proof.Gen.Kernel.Skeleton
import proofs.«136700_j10075993276859_1_alg».proof.Proof.Gen.Kernel.Launch
import proofs.«136700_j10075993276859_1_alg».proof.Proof.Gen.Kernel.Points
import proofs.«136700_j10075993276859_1_alg».proof.Proof.Gen.Kernel.Frame
import proofs.«136700_j10075993276859_1_alg».proof.Proof.Gen.KernelIdeal
import proofs.«136700_j10075993276859_1_alg».proof.Proof.Gen.KernelIdeal.Skeleton
import proofs.«136700_j10075993276859_1_alg».proof.Proof.Gen.KernelIdeal.Launch
import proofs.«136700_j10075993276859_1_alg».proof.Proof.Gen.KernelIdeal.Points
import proofs.«136700_j10075993276859_1_alg».proof.Proof.Gen.KernelIdeal.Frame
import proofs.«136700_j10075993276859_1_alg».proof.Proof.Gen.ReferenceIdeal
import proofs.«136700_j10075993276859_1_alg».proof.Proof.Gen.Pre_finite_inputs
import proofs.«136700_j10075993276859_1_alg».proof.Proof.Gen.KernelIdeal.Value
import proofs.«136700_j10075993276859_1_alg».proof.Proof.Gen.ReferenceIdeal.Run
import proofs.«136700_j10075993276859_1_alg».proof.Proof.Gen.ReferenceIdeal.Read
import proofs.«136700_j10075993276859_1_alg».proof.Proof.Spec
import proofs.«136700_j10075993276859_1_alg».proof.Proof.RefValue
import proofs.«136700_j10075993276859_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealised kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, the kernel's result array and the reference's are the same function of
    those arguments: the channel sum against the normalised weights plus the bias. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
